-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024 : Shape := ⟨1, ![1024]⟩
abbrev S8x8x1024 : Shape := ⟨3, ![8, 8, 1024]⟩
abbrev S8x1024x8 : Shape := ⟨3, ![8, 1024, 8]⟩
abbrev S32 : Shape := ⟨1, ![32]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x8x1024 : S_.BroadcastsInDim S8x8x1024 (![] : Fin 0 → Fin S8x8x1024.rank)
  reducesTo_S8x8x1024_S_d0_1_2 : S8x8x1024.ReducesTo [0, 1, 2] S_
  bcast_S_S8x1024x8 : S_.BroadcastsInDim S8x1024x8 (![] : Fin 0 → Fin S8x1024x8.rank)
  reducesTo_S8x1024x8_S_d0_1_2 : S8x1024x8.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S8x1024x8 .f32) (main_arg5 : IVec S32 32) (main_v13 : IVec S_ 1) (main_v16 : IVec S8x8x1024 1) : IVec S_ 1 :=
  let main_c_5 : IVec S_ 1 := constantI S_ 1 1#1
  let main_v17 : IVec S_ 1 := (fun x v => Host.reduce IntOp.andi x v reducesTo_S8x8x1024_S_d0_1_2 h_S_) main_v16 main_c_5
  let main_v18 : IVec S_ 1 := andi main_v13 main_v17
  let main_v19 : FVec F S8x1024x8 .f32 := Host.absf main_arg4
  let main_cst_6 : FVec F S_ .f32 := constant S_ .f32 0x7F800000#32
  let main_v20 : FVec F S8x1024x8 .f32 := broadcastInDim S8x1024x8 ![] bcast_S_S8x1024x8 main_cst_6
  let main_v21 : IVec S8x1024x8 1 := cmpf .olt main_v19 main_v20
  let main_c_7 : IVec S_ 1 := constantI S_ 1 1#1
  let main_v22 : IVec S_ 1 := (fun x v => Host.reduce IntOp.andi x v reducesTo_S8x1024x8_S_d0_1_2 h_S_) main_v21 main_c_7
  let main_v23 : IVec S_ 1 := andi main_v18 main_v22
  let main_c_8 : IVec S_ 32 := constantI S_ 32 0#32
  let main_v24 : IVec S32 32 := broadcastInDim S32 ![] bcast_S_S32 main_c_8
  let main_v25 : IVec S32 1 := cmpi .sge main_arg5 main_v24
  let main_c_9 : IVec S_ 32 := constantI S_ 32 8#32
  let main_v26 : IVec S32 32 := broadcastInDim S32 ![] bcast_S_S32 main_c_9
  let main_v27 : IVec S32 1 := cmpi .slt main_arg5 main_v26
  let main_v28 : IVec S32 1 := andi main_v25 main_v27
  let main_c_10 : IVec S_ 1 := constantI S_ 1 1#1
  let main_v29 : IVec S_ 1 := (fun x v => Host.reduce IntOp.andi x v reducesTo_S32_S_d0 h_S_) main_v28 main_c_10
  let main_v30 : IVec S_ 1 := andi main_v23 main_v29
  main_v30

def fn {F : FTy → Type} [FloatOps F] (main_arg0 : FVec F S32x1024x1024 .f32) (main_arg1 : FVec F S1024x1024 .f32) (main_arg2 : FVec F S1024 .f32) (main_arg3 : FVec F S8x8x1024 .f32) (main_arg4 : FVec F S8x1024x8 .f32) (main_arg5 : IVec S32 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8x8x1024 .f32 := Host.absf main_arg3
  let main_cst_4 : FVec F S_ .f32 := constant S_ .f32 0x7F800000#32
  let main_v15 : FVec F S8x8x1024 .f32 := broadcastInDim S8x8x1024 ![] bcast_S_S8x8x1024 main_cst_4
  let main_v16 : IVec S8x8x1024 1 := cmpf .olt main_v14 main_v15
  fn_part1 (F := F) main_arg4 main_arg5 main_v13 main_v16
-- ==== Kernel.lean ====
abbrev S32x1024x1024 : Shape := ⟨3, ![32, 1024, 1024]⟩
abbrev S1024x1024 : Shape := ⟨2, ![1024, 1024]⟩
abbrev S1024 : Shape := ⟨1, ![1024]⟩
abbrev S8x8x1024 : Shape := ⟨3, ![8, 8, 1024]⟩
abbrev S8x1024x8 : Shape := ⟨3, ![8, 1024, 8]⟩
abbrev S32 : Shape := ⟨1, ![32]⟩
abbrev S1x1024 : Shape := ⟨2, ![1, 1024]⟩
abbrev S1x1024x1024 : Shape := ⟨3, ![1, 1024, 1024]⟩
abbrev S1 : Shape := ⟨1, ![1]⟩
abbrev S1x8x1024 : Shape := ⟨3, ![1, 8, 1024]⟩
abbrev S8x1024 : Shape := ⟨2, ![8, 1024]⟩
abbrev S1x1024x8 : Shape := ⟨3, ![1, 1024, 8]⟩
abbrev S1024x8 : Shape := ⟨2, ![1024, 8]⟩

abbrev nBuf : Space → Nat
  | .hbm => 10
  | .vmem => 8
  | .smem => 1
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024, .f32⟩
  | .hbm, ⟨3, _⟩ => ⟨S8x8x1024, .f32⟩
  | .hbm, ⟨4, _⟩ => ⟨S8x1024x8, .f32⟩
  | .hbm, ⟨5, _⟩ => ⟨S1024x1024, .bf16⟩
  | .hbm, ⟨6, _⟩ => ⟨S8x8x1024, .bf16⟩
  | .hbm, ⟨7, _⟩ => ⟨S8x1024x8, .bf16⟩
  | .hbm, ⟨8, _⟩ => ⟨S1x1024, .f32⟩
  | .hbm, ⟨9, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S8x8x1024, .bf16⟩
  | .local _ .vmem, ⟨4, _⟩ => ⟨S8x1024x8, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | .local _ .smem, ⟨0, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v8 : Index := Scalar.indexCast v1
  let c0_4 : Index := 0#32
  let c0_5 : Index := 0#32
  ![v8.toNat, 0, 0]

def k0_off3 (v1 : BitVec 32) : Fin 3 → Nat :=
  let v11 : Index := Scalar.indexCast v1
  let c0_6 : Index := 0#32
  let c0_7 : Index := 0#32
  ![v11.toNat, 0, 0]

def k0_chk1 (v1 : BitVec 32) : Prop :=
  (∀ a, (k0_off2 v1) a + S1x8x1024.size a ≤ S8x8x1024.size a) ∧
  (∀ a, (k0_off3 v1) a + S1x1024x8.size a ≤ S8x1024x8.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x8x1024.size a ≤ S8x8x1024.size a := fun v1 k0_hw1 => k0_hw1.1
theorem k0_off3_inb : ∀ (v1 : BitVec 32) (k0_hw1 : k0_chk1 v1), ∀ a, (k0_off3 v1) a + S1x1024x8.size a ≤ S8x1024x8.size a := fun v1 k0_hw1 => k0_hw1.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S1024_S1x1024 : S1024.ShapeCasts S1x1024
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1x8x1024 : 0 < S1x8x1024.numel
  shapeCasts_S1x8x1024_S8x1024 : S1x8x1024.ShapeCasts S8x1024
  h_S1x1024x8 : 0 < S1x1024x8.numel
  shapeCasts_S1x1024x8_S1024x8 : S1x1024x8.ShapeCasts S1024x8
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  dot_S1024x1024_S1024x1024_S1024x1024_1_1_0_0_n_n_wf : DotDims.WF S1024x1024 S1024x1024 S1024x1024 [1] [1] [0] [0] [] []
  dot_S1024x1024_S8x1024_S1024x8_1_1_0_0_n_n_wf : DotDims.WF S1024x1024 S8x1024 S1024x8 [1] [1] [0] [0] [] []
  dot_S1024x8_S1024x8_S1024x1024_1_1_0_0_n_n_wf : DotDims.WF S1024x8 S1024x8 S1024x1024 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8x1024.size a ≤ S8x8x1024.size a
  hwx0_2 : ∀ i : grid0.Coords, EltTy.bits .bf16 = 32 ∨ (Rect.block (s := S8x8x1024) S8x8x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024x8.size a ≤ S8x1024x8.size a
  hwx0_3 : ∀ i : grid0.Coords, EltTy.bits .bf16 = 32 ∨ (Rect.block (s := S8x1024x8) S8x1024x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x1024x1024.size a
  hwx0_5 : ∀ i : grid0.Coords, EltTy.bits .f32 = 32 ∨ (Rect.block (s := S32x1024x1024) S1x1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S8x1024_S1024x8_1_1_0_0_n_n : DotDims S1024x1024 S8x1024 S1024x8 where
  lhsContracting := [1]
  rhsContracting := [1]
  lhsNonContracting := [0]
  rhsNonContracting := [0]
  lhsBatch := []
  rhsBatch := []
  wf := dot_S1024x1024_S8x1024_S1024x8_1_1_0_0_n_n_wf
def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_v0) S1024x1024.size reads0_1 false true 1 stage0_1 sem0_1 nbuf0_1 hstage0_1

abbrev spec0_2 : Pipeline.WinSpec sig grid0.rank :=
  Pipeline.WinSpec.ofSpec (Memref.whole main_v1) S8x8x1024.size reads0_2 false true 1 stage0_2 sem0_2 nbuf0_2 hstage0_2

abbrev spec0_3 : Pipeline.WinSpec sig grid0.rank :=
  Pipeline.WinSpec.ofSpec (Memref.whole main_v2) S8x1024x8.size reads0_3 false true 1 stage0_3 sem0_3 nbuf0_3 hstage0_3

abbrev spec0_4 : Pipeline.WinSpec sig grid0.rank :=
  Pipeline.WinSpec.ofSpec (Memref.whole main_v3) S1x1024.size reads0_4 false true 1 stage0_4 sem0_4 nbuf0_4 hstage0_4

abbrev spec0_5 : Pipeline.WinSpec sig grid0.rank :=
  Pipeline.WinSpec.ofSpec (Memref.whole main_v4) S1x1024x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S8x8x1024 : Shape := ⟨3, ![8, 8, 1024]⟩
abbrev S8x1024x8 : Shape := ⟨3, ![8, 1024, 8]⟩
abbrev S32 : Shape := ⟨1, ![32]⟩
abbrev S1x1x1024 : Shape := ⟨3, ![1, 1, 1024]⟩
abbrev S_ : Shape := ⟨0, ![]⟩
abbrev S32x1 : Shape := ⟨2, ![32, 1]⟩
abbrev S32x8x1024 : Shape := ⟨3, ![32, 8, 1024]⟩
abbrev S32x1024x8 : Shape := ⟨3, ![32, 1024, 8]⟩

abbrev nBuf : Space → Nat
  | .hbm => 34
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024, .f32⟩
  | .hbm, ⟨3, _⟩ => ⟨S8x8x1024, .f32⟩
  | .hbm, ⟨4, _⟩ => ⟨S8x1024x8, .f32⟩
  | .hbm, ⟨5, _⟩ => ⟨S32, .i32⟩
  | .hbm, ⟨6, _⟩ => ⟨S32x1024x1024, .f32⟩
  | .hbm, ⟨7, _⟩ => ⟨S1x1x1024, .f32⟩
  | .hbm, ⟨8, _⟩ => ⟨S32x1024x1024, .f32⟩
  | .hbm, ⟨9, _⟩ => ⟨S32x1024x1024, .f32⟩
  | .hbm, ⟨10, _⟩ => ⟨S_, .i32⟩
  | .hbm, ⟨11, _⟩ => ⟨S32, .i32⟩
  | .hbm, ⟨12, _⟩ => ⟨S32, .i1⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S32x1, .i32⟩
  | .hbm, ⟨18, _⟩ => ⟨S32x8x1024, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x1024x8, .f32⟩
  | .hbm, ⟨28, _⟩ => ⟨S32x1024x8, .f32⟩
  | .hbm, ⟨29, _⟩ => ⟨S32x1024x1024, .f32⟩
  | .hbm, ⟨30, _⟩ => ⟨S_, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S_S32 : S_.BroadcastsInDim S32 (![] : Fin 0 → Fin S32.rank)
  bcast_S32_S32x1_0 : S32.BroadcastsInDim S32x1 (![0] : Fin 1 → Fin S32x1.rank)
  bcast_S_S32x1024x1024 : S_.BroadcastsInDim S32x1024x1024 (![] : Fin 0 → Fin S32x1024x1024.rank)
  dot_S32x1024x1024_S1024x1024_S32x1024x1024_2_1_01_0_n_n_wf : DotDims.WF S32x1024x1024 S1024x1024 S32x1024x1024 [2] [1] [0, 1] [0] [] []
  gather_S8x8x1024_S32x1_S32x8x1024_12_0_n_n_0_1_181024_wf : GatherDims.WF S8x8x1024 S32x1 S32x8x1024 [1, 2] [0] [] [0] [] 1 ![1, 8, 1024]
  gather_S8x1024x8_S32x1_S32x1024x8_12_0_n_n_0_1_110248_wf : GatherDims.WF S8x1024x8 S32x1 S32x1024x8 [1, 2] [0] [] [0] [] 1 ![1, 1024, 8]
  dot_S32x1024x1024_S32x8x1024_S32x1024x8_2_2_1_1_0_0_wf : DotDims.WF S32x1024x1024 S32x8x1024 S32x1024x8 [2] [2] [1] [1] [0] [0]
  dot_S32x1024x8_S32x1024x8_S32x1024x1024_2_2_1_1_0_0_wf : DotDims.WF S32x1024x8 S32x1024x8 S32x1024x1024 [2] [2] [1] [1] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def gather_S8x8x1024_S32x1_S32x8x1024_12_0_n_n_0_1_181024 : GatherDims S8x8x1024 S32x1 S32x8x1024 where
  offsetDims := [1, 2]
  collapsedSliceDims := [0]
  operandBatchingDims := []
  startIndicesBatchingDims := []
  startIndexMap := [0]
  indexVectorDim := 1
  sliceSizes := ![1, 8, 1024]
  wf := gather_S8x8x1024_S32x1_S32x8x1024_12_0_n_n_0_1_181024_wf
def gather_S8x1024x8_S32x1_S32x1024x8_12_0_n_n_0_1_110248 : GatherDims S8x1024x8 S32x1 S32x1024x8 where
  offsetDims := [1, 2]
  collapsedSliceDims := [0]
  operandBatchingDims := []
  startIndicesBatchingDims := []
  startIndexMap := [0]
  indexVectorDim := 1
  sliceSizes := ![1, 1024, 8]
  wf := gather_S8x1024x8_S32x1_S32x1024x8_12_0_n_n_0_1_110248_wf
def dot_S32x1024x1024_S32x8x1024_S32x1024x8_2_2_1_1_0_0 : DotDims S32x1024x1024 S32x8x1024 S32x1024x8 where
  lhsContracting := [2]
  rhsContracting := [2]
  lhsNonContracting := [1]
  rhsNonContracting := [1]
  lhsBatch := [0]
  rhsBatch := [0]
  wf := dot_S32x1024x1024_S32x8x1024_S32x1024x8_2_2_1_1_0_0_wf
def dot_S32x1024x8_S32x1024x8_S32x1024x1024_2_2_1_1_0_0 : DotDims S32x1024x8 S32x1024x8 S32x1024x1024 where
  lhsContracting := [2]
  rhsContracting := [2]
  lhsNonContracting := [1]
  rhsNonContracting := [1]
  lhsBatch := [0]
  rhsBatch := [0]
  wf := dot_S32x1024x8_S32x1024x8_S32x1024x1024_2_2_1_1_0_0_wf

class Facts : Prop extends Facts₀ where

variable [Facts]
-- ==== Proof.Range.lean ====
/-
  The adapter indices are in range.

  The precondition's last conjunct says of every one of the 32 index words w that 0 ≤ w and w < 8, both
  read signed. Such a word, read unsigned, is below 8; read signed it is not negative, so the wrap of a
  negative index is never taken; and its signed and unsigned values agree.
-/
import proofs.«422767_j89489938579617_3_alg».proof.Pre_finite_inputs
import Idealize.ShloMosaic.Lib.ReduceAll
import Idealize.ShloMosaic.Lib.ValueIdx

noncomputable section

namespace Cert.Range

open Idealize.ShloMosaic

/-- A one-bit word made from a Boolean is 1 exactly when the Boolean holds. -/
theorem ofBool_one (b : Bool) : BitVec.ofBool b = 1#1 ↔ b = true := by cases b <;> decide

/-- A word that is at least 0 and below 8, both signed, is below 8 unsigned. -/
theorem toNat_lt_of_signed (w : BitVec 32) (h0 : IntOp.cmpi .sge w 0#32 = 1#1) (h8 : IntOp.cmpi .slt w 8#32 = 1#1) :
    w.toNat < 8 := by
  unfold IntOp.cmpi at h0 h8
  rw [ofBool_one] at h0 h8
  simp only [BitVec.slt, BitVec.sle, decide_eq_true_eq] at h0 h8
  have z : (0#32 : BitVec 32).toInt = 0 := by decide
  have e : (8#32 : BitVec 32).toInt = 8 := by decide
  rw [z] at h0
  rw [e] at h8
  have hw := w.isLt
  rw [BitVec.toInt_eq_toNat_cond] at h0 h8
  split at h8 <;> omega

/-- A word below 8 unsigned is not negative read signed. -/
theorem not_slt_zero (w : BitVec 32) (hw : w.toNat < 8) : ¬ (IntOp.cmpi .slt w 0#32 = 1#1) := by
  unfold IntOp.cmpi
  rw [ofBool_one]
  simp only [BitVec.slt, decide_eq_true_eq]
  have z : (0#32 : BitVec 32).toInt = 0 := by decide
  rw [z, BitVec.toInt_eq_toNat_cond]
  split <;> omega

/-- A word below 8 unsigned has the same value read signed. -/
theorem toInt_toNat (w : BitVec 32) (hw : w.toNat < 8) : w.toInt.toNat = w.toNat := by
  rw [BitVec.toInt_eq_toNat_cond]
  split
  · exact Int.toNat_natCast _
  · omega

instance : Subsingleton Cert.Pre_finite_inputs.S_.Idx := ⟨fun a b => funext fun d => d.elim0⟩

variable {F : FTy → Type} [FloatOps F] [Cert.Pre_finite_inputs.Facts]

/-- Under the precondition every index word is below 8 unsigned. -/
theorem word_lt (a0 : FVec F Cert.Pre_finite_inputs.S32x1024x1024 .f32) (a1 : FVec F Cert.Pre_finite_inputs.S1024x1024 .f32)
    (a2 : FVec F Cert.Pre_finite_inputs.S1024 .f32) (a3 : FVec F Cert.Pre_finite_inputs.S8x8x1024 .f32)
    (a4 : FVec F Cert.Pre_finite_inputs.S8x1024x8 .f32) (a5 : IVec Cert.Pre_finite_inputs.S32 32)
    (h : Cert.Pre_finite_inputs.fn (F := F) a0 a1 a2 a3 a4 a5 = fun _ => 1#1) (k : Cert.Pre_finite_inputs.S32.Idx) :
    (a5 k).toNat < 8 := by
  have e := congrFun h ValueIdx.ix0
  unfold Cert.Pre_finite_inputs.fn Cert.Pre_finite_inputs.fn_part1 at e
  dsimp only at e
  have e' := (IntOp.andi_eq_one.1 e).2
  have ek := Host.reduce_andi_all _ _ _ _ _ e' k
  have ek' := IntOp.andi_eq_one.1 ek
  exact toNat_lt_of_signed _ ek'.1 ek'.2

end Cert.Range

end
-- ==== Proof.HypsKernel.lean ====
/-
  The side condition the body assumes of the adapter index it reads, from the precondition (the kernel as printed).

  At grid point t the body reads one word of the prefetched index table and assumes that the two rows
  it then loads — row w of the [8, 8, 1024] stack and row w of the [8, 1024, 8] stack — lie inside their
  arrays: w + 1 ≤ 8 on the leading axis, nothing to ask on the others. The table is the sixth argument
  as launched, whatever entry the point reads, and the precondition puts every entry below 8.
-/
import proofs.«422767_j89489938579617_3_alg».proof.Defs
import proofs.«422767_j89489938579617_3_alg».proof.Proof.Gen.Kernel.Frame
import proofs.«422767_j89489938579617_3_alg».proof.Proof.Range

set_option maxRecDepth 16384

noncomputable section

namespace Cert.Kernel.HypsOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- No index map reads the table, so the pipeline asks nothing of its contents. -/
theorem ok : Ok m := by
  show ok0 _
  unfold ok0
  trivial

/-- A word below 8 names a row of both stacks: the check the body assumes of it holds. -/
theorem chk_of_lt (w : BitVec 32) (hw : w.toNat < 8) : k0_chk1 w := by
  have e : (Scalar.indexCast w).toNat = w.toNat := rfl
  refine ⟨fun a => ?_, fun a => ?_⟩
  · fin_cases a <;> simp [k0_off2, e, S1x8x1024, S8x8x1024] <;> omega
  · fin_cases a <;> simp [k0_off3, e, S1x1024x8, S8x1024x8] <;> omega

/-- When every entry of the index argument is below 8, the word the body reads at any point passes its check. -/
theorem hyps_of_lt (hO : Ok m) (hk : ∀ k : S32.Idx, (m ((0 : Dev nD).tc.loc main_arg5) k).toNat < 8) : Hyps m hO :=
  Hyps.of fun c t => by
    unfold Hyps.p0
    apply chk_of_lt
    show (tbM0_0.view.readAt (Elt F) (Rect.unit (s := S32) (k0_off1 (grid0.coords t)) S1.size (k0_off1_inb (grid0.coords t))).toLoadRect (V m (0 : Dev nD) main_arg5) _).toNat < 8
    rw [V_main_arg5, View.readAt_eq_ld]
    show (View.read (Elt F) tbM0_0.view (m ((0 : Dev nD).tc.loc main_arg5)) _).toNat < 8
    rw [View.read_apply]
    simp only [cast_eq]
    exact hk _

end Cert.Kernel.HypsOfPre

namespace Cert.Kernel.HypsOfPre

open Cert.Kernel Cert.Kernel.Gen
open Idealize.ShloMosaic Idealize.ShloMosaic.TcCoe Idealize.SL.Sem

variable [Cert.Pre_finite_inputs.Facts]

/-- Under the precondition every entry of the index argument is below 8. -/
theorem word_lt (m : (ℓ : Loc nD τ sig) → Buf (Elt Bits) ℓ) (h : Cert.Pre_Kernel m) (k : S32.Idx) :
    (m ((0 : Dev nD).tc.loc main_arg5) k).toNat < 8 :=
  Cert.Range.word_lt _ _ _ _ _ _ (h 0) k

/-- The frame's two hypotheses, from the precondition. -/
theorem hyps_of_pre (m : (ℓ : Loc nD τ sig) → Buf (Elt Bits) ℓ) (h : Cert.Pre_Kernel m) : Hyps m (ok m) :=
  hyps_of_lt m (ok m) (word_lt m h)

end Cert.Kernel.HypsOfPre

end
-- ==== Proof.HypsKernelIdeal.lean ====
/-
  The side condition the body assumes of the adapter index it reads, from the precondition (the idealized kernel).

  At grid point t the body reads one word of the prefetched index table and assumes that the two rows
  it then loads — row w of the [8, 8, 1024] stack and row w of the [8, 1024, 8] stack — lie inside their
  arrays: w + 1 ≤ 8 on the leading axis, nothing to ask on the others. The table is the sixth argument
  as launched, whatever entry the point reads, and the precondition puts every entry below 8.
-/
import proofs.«422767_j89489938579617_3_alg».proof.Defs
import proofs.«422767_j89489938579617_3_alg».proof.Proof.Gen.KernelIdeal.Frame
import proofs.«422767_j89489938579617_3_alg».proof.Proof.Range

set_option maxRecDepth 16384

noncomputable section

namespace Cert.KernelIdeal.HypsOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- No index map reads the table, so the pipeline asks nothing of its contents. -/
theorem ok : Ok m := by
  show ok0 _
  unfold ok0
  trivial

/-- A word below 8 names a row of both stacks: the check the body assumes of it holds. -/
theorem chk_of_lt (w : BitVec 32) (hw : w.toNat < 8) : k0_chk1 w := by
  have e : (Scalar.indexCast w).toNat = w.toNat := rfl
  refine ⟨fun a => ?_, fun a => ?_⟩
  · fin_cases a <;> simp [k0_off2, e, S1x8x1024, S8x8x1024] <;> omega
  · fin_cases a <;> simp [k0_off3, e, S1x1024x8, S8x1024x8] <;> omega

/-- When every entry of the index argument is below 8, the word the body reads at any point passes its check. -/
theorem hyps_of_lt (hO : Ok m) (hk : ∀ k : S32.Idx, (m ((0 : Dev nD).tc.loc main_arg5) k).toNat < 8) : Hyps m hO :=
  Hyps.of fun c t => by
    unfold Hyps.p0
    apply chk_of_lt
    show (tbM0_0.view.readAt (Elt F) (Rect.unit (s := S32) (k0_off1 (grid0.coords t)) S1.size (k0_off1_inb (grid0.coords t))).toLoadRect (V m (0 : Dev nD) main_arg5) _).toNat < 8
    rw [V_main_arg5, View.readAt_eq_ld]
    show (View.read (Elt F) tbM0_0.view (m ((0 : Dev nD).tc.loc main_arg5)) _).toNat < 8
    rw [View.read_apply]
    simp only [cast_eq]
    exact hk _

end Cert.KernelIdeal.HypsOfPre

namespace Cert.KernelIdeal.HypsOfPre

open Cert.KernelIdeal Cert.KernelIdeal.Gen
open Idealize.ShloMosaic Idealize.ShloMosaic.TcCoe Idealize.SL.Sem

variable [Cert.Pre_finite_inputs.Facts]

/-- Under the precondition every entry of the index argument is below 8. -/
theorem word_lt (m : (ℓ : Loc nD τ sig) → Buf (Elt Ideal) ℓ) (h : Cert.Pre_KernelIdeal m) (k : S32.Idx) :
    (m ((0 : Dev nD).tc.loc main_arg5) k).toNat < 8 :=
  Cert.Range.word_lt _ _ _ _ _ _ (h 0) k

/-- The frame's two hypotheses, from the precondition. -/
theorem hyps_of_pre (m : (ℓ : Loc nD τ sig) → Buf (Elt Ideal) ℓ) (h : Cert.Pre_KernelIdeal m) : Hyps m (ok m) :=
  hyps_of_lt m (ok m) (word_lt m h)

end Cert.KernelIdeal.HypsOfPre

end
-- ==== Proof.LibMatmulRows.lean ====
/-
  A matrix product of rows against rows, read at an index.

  An [M, K] operand against an [N, K] operand, both contracted along their second axis into a zero
  accumulator, gives at (p, q) the sum over k of lhs[p, k] · rhs[q, k] on the extended reals. Stated for any
  dimension-number record whose contraction has the one axis of extent K and whose operand indices read the
  coordinates that way (the four axis facts, which a concrete record decides).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The product at (p, q) as a plain sum over the contracted coordinate. -/
theorem matmul_rows {M N K : Nat} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q)
      = ∑ k : Fin K, lhs (ix2 p k) * rhs (ix2 q k) := by
  show FloatOps.matmul d prec lhs rhs (constant ⟨2, ![M, N]⟩ .f32 0x00000000#32) (ix2 p q) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmul

end
-- ==== Proof.Payload.lean ====
/-
  The body's one store, read at an index.

  The body loads the batch's [1, 1024, 1024] block of x, the whole [1024, 1024] weight, one [1, 8, 1024] slab
  and one [1, 1024, 8] slab of the two adapter stacks, and the [1, 1024] bias row, and stores

      (x W^T + bias) + ((x A_e^T) Bw_e^T) * c

  as a [1, 1024, 1024] block. At the ideal instance the narrowing casts are the identity and each of the three
  products, contracted along the second axis of both operands into a zero accumulator, is a plain sum; the
  unit-axis shape casts and the bias broadcast only rename indices. So the entry (u, s, o) of the stored block is
  the specification's expression over the loaded pieces.
-/
import proofs.«422767_j89489938579617_3_alg».proof.Proof.Gen.KernelIdeal.Skeleton
import proofs.«422767_j89489938579617_3_alg».proof.Proof.LibMatmulRows
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## How each product's operand indices read the coordinates -/

/- x against W: [1024, 1024] by [1024, 1024]. -/

theorem xw_l0 (j : S1024x1024.Idx) (c : dot_S1024x1024_S1024x1024_S1024x1024_1_1_0_0_n_n.contr.Idx) : (dot_S1024x1024_S1024x1024_S1024x1024_1_1_0_0_n_n.lhsIdx j c 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem xw_l1 (j : S1024x1024.Idx) (c : dot_S1024x1024_S1024x1024_S1024x1024_1_1_0_0_n_n.contr.Idx) : (dot_S1024x1024_S1024x1024_S1024x1024_1_1_0_0_n_n.lhsIdx j c 1).val = (c ⟨0, by decide⟩).val :=
  dot_S1024x1024_S1024x1024_S1024x1024_1_1_0_0_n_n.lhsIdx_val_of_single rfl j c
theorem xw_r0 (j : S1024x1024.Idx) (c : dot_S1024x1024_S1024x1024_S1024x1024_1_1_0_0_n_n.contr.Idx) : (dot_S1024x1024_S1024x1024_S1024x1024_1_1_0_0_n_n.rhsIdx j c 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem xw_r1 (j : S1024x1024.Idx) (c : dot_S1024x1024_S1024x1024_S1024x1024_1_1_0_0_n_n.contr.Idx) : (dot_S1024x1024_S1024x1024_S1024x1024_1_1_0_0_n_n.rhsIdx j c 1).val = (c ⟨0, by decide⟩).val :=
  dot_S1024x1024_S1024x1024_S1024x1024_1_1_0_0_n_n.rhsIdx_val_of_single rfl j c

/- x against the adapter's down-projection: [1024, 1024] by [8, 1024]. -/

theorem xa_l0 (j : S1024x8.Idx) (c : dot_S1024x1024_S8x1024_S1024x8_1_1_0_0_n_n.contr.Idx) : (dot_S1024x1024_S8x1024_S1024x8_1_1_0_0_n_n.lhsIdx j c 0).val = (j 0).val := by
  unfold DotDims.lhsIdx
  rw [dif_neg (show ¬(0 : Fin S1024x1024.rank) ∈ dot_S1024x1024_S8x1024_S1024x8_1_1_0_0_n_n.lhsBatch by decide), dif_pos (show (0 : Fin S1024x1024.rank) ∈ dot_S1024x1024_S8x1024_S1024x8_1_1_0_0_n_n.lhsNonContracting by decide)]
  rfl
theorem xa_l1 (j : S1024x8.Idx) (c : dot_S1024x1024_S8x1024_S1024x8_1_1_0_0_n_n.contr.Idx) : (dot_S1024x1024_S8x1024_S1024x8_1_1_0_0_n_n.lhsIdx j c 1).val = (c ⟨0, by decide⟩).val :=
  dot_S1024x1024_S8x1024_S1024x8_1_1_0_0_n_n.lhsIdx_val_of_single rfl j c
theorem xa_r0 (j : S1024x8.Idx) (c : dot_S1024x1024_S8x1024_S1024x8_1_1_0_0_n_n.contr.Idx) : (dot_S1024x1024_S8x1024_S1024x8_1_1_0_0_n_n.rhsIdx j c 0).val = (j 1).val := by
  unfold DotDims.rhsIdx
  rw [dif_neg (show ¬(0 : Fin S8x1024.rank) ∈ dot_S1024x1024_S8x1024_S1024x8_1_1_0_0_n_n.rhsBatch by decide), dif_pos (show (0 : Fin S8x1024.rank) ∈ dot_S1024x1024_S8x1024_S1024x8_1_1_0_0_n_n.rhsNonContracting by decide)]
  rfl
theorem xa_r1 (j : S1024x8.Idx) (c : dot_S1024x1024_S8x1024_S1024x8_1_1_0_0_n_n.contr.Idx) : (dot_S1024x1024_S8x1024_S1024x8_1_1_0_0_n_n.rhsIdx j c 1).val = (c ⟨0, by decide⟩).val :=
  dot_S1024x1024_S8x1024_S1024x8_1_1_0_0_n_n.rhsIdx_val_of_single rfl j c

/- the down-projection against the adapter's up-projection: [1024, 8] by [1024, 8]. -/

theorem hb_l0 (j : S1024x1024.Idx) (c : dot_S1024x8_S1024x8_S1024x1024_1_1_0_0_n_n.contr.Idx) : (dot_S1024x8_S1024x8_S1024x1024_1_1_0_0_n_n.lhsIdx j c 0).val = (j 0).val := by
  unfold DotDims.lhsIdx
  rw [dif_neg (show ¬(0 : Fin S1024x8.rank) ∈ dot_S1024x8_S1024x8_S1024x1024_1_1_0_0_n_n.lhsBatch by decide), dif_pos (show (0 : Fin S1024x8.rank) ∈ dot_S1024x8_S1024x8_S1024x1024_1_1_0_0_n_n.lhsNonContracting by decide)]
  rfl
theorem hb_l1 (j : S1024x1024.Idx) (c : dot_S1024x8_S1024x8_S1024x1024_1_1_0_0_n_n.contr.Idx) : (dot_S1024x8_S1024x8_S1024x1024_1_1_0_0_n_n.lhsIdx j c 1).val = (c ⟨0, by decide⟩).val :=
  dot_S1024x8_S1024x8_S1024x1024_1_1_0_0_n_n.lhsIdx_val_of_single rfl j c
theorem hb_r0 (j : S1024x1024.Idx) (c : dot_S1024x8_S1024x8_S1024x1024_1_1_0_0_n_n.contr.Idx) : (dot_S1024x8_S1024x8_S1024x1024_1_1_0_0_n_n.rhsIdx j c 0).val = (j 1).val := by
  unfold DotDims.rhsIdx
  rw [dif_neg (show ¬(0 : Fin S1024x8.rank) ∈ dot_S1024x8_S1024x8_S1024x1024_1_1_0_0_n_n.rhsBatch by decide), dif_pos (show (0 : Fin S1024x8.rank) ∈ dot_S1024x8_S1024x8_S1024x1024_1_1_0_0_n_n.rhsNonContracting by decide)]
  rfl
theorem hb_r1 (j : S1024x1024.Idx) (c : dot_S1024x8_S1024x8_S1024x1024_1_1_0_0_n_n.contr.Idx) : (dot_S1024x8_S1024x8_S1024x1024_1_1_0_0_n_n.rhsIdx j c 1).val = (c ⟨0, by decide⟩).val :=
  dot_S1024x8_S1024x8_S1024x1024_1_1_0_0_n_n.rhsIdx_val_of_single rfl j c

/-! ## The stored block at an index -/

/-- Entry (u, s, o) of the block the body stores, over the five loaded pieces. -/
theorem pay_apply (v2 : Vec Ideal S1x1024x1024 .f32) (v5 : Vec Ideal S1024x1024 .bf16) (v9 : Vec Ideal S1x8x1024 .bf16)
    (v12 : Vec Ideal S1x1024x8 .bf16) (v19 : Vec Ideal S1x1024 .f32) (u : Fin 1) (s o : Fin 1024) :
    k0_pay1 (F := Ideal) v2 v5 v9 v12 v19 (ix3 u s o)
      = ((∑ k : Fin 1024, v2 (ix3 (0 : Fin 1) s k) * v5 (ix2 o k)) + v19 (ix2 (0 : Fin 1) o))
        + (∑ r : Fin 8, (∑ k : Fin 1024, v2 (ix3 (0 : Fin 1) s k) * v9 (ix3 (0 : Fin 1) r k)) * v12 (ix3 (0 : Fin 1) o r))
          * Ideal.ofBits .f32 0x3E000000#32 := by
  unfold k0_pay1
  -- the unit-axis cast of the stored block, the two sums, the scale and the bias row, read at the index
  rw [shapeCast_ab_1ab_apply, addf_apply, addf_apply, mulf_apply, broadcast_apply, broadcastTo_1b_ab_apply, shapeCast_self,
    shapeCast_self v19,
    -- the base product and the up-projection, each a sum over its contracted coordinate
    Cert.LibMatmul.matmul_rows dot_S1024x1024_S1024x1024_S1024x1024_1_1_0_0_n_n none rfl rfl xw_l0 xw_l1 xw_r0 xw_r1,
    Cert.LibMatmul.matmul_rows dot_S1024x8_S1024x8_S1024x1024_1_1_0_0_n_n none rfl rfl hb_l0 hb_l1 hb_r0 hb_r1]
  -- under the sums: the narrowing casts are the identity, the down-projection is a sum, the slabs drop their unit axis
  simp only [truncf_apply, shapeCast_1ab_ab_apply,
    Cert.LibMatmul.matmul_rows dot_S1024x1024_S8x1024_S1024x8_1_1_0_0_n_n none rfl rfl xa_l0 xa_l1 xa_r0 xa_r1]
  rfl

end Cert.KernelIdeal.Payload

end
-- ==== Proof.Spec.lean ====
/-
  What both programs compute.

  A shared linear layer with a per-batch low-rank correction. For batch b, sequence position s and output
  feature o,

      out[b, s, o] = (Σ_k x[b, s, k] · W[o, k] + bias[o]) + (Σ_r (Σ_k x[b, s, k] · A[e, r, k]) · Bw[e, o, r]) · c

  where e is the adapter the batch's index word names (one of eight; a word past the last adapter would name
  the last one, which the precondition rules out) and c is the scale both programs carry as the same binary
  word. The grouping — the bias added to the base product first, the scaled correction last — is the one both
  programs use, so no distributive law, and hence no finiteness, is needed to join them.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![32, 1024, 1024]⟩
abbrev SW : Shape := ⟨2, ![1024, 1024]⟩
abbrev SB : Shape := ⟨1, ![1024]⟩
abbrev SA : Shape := ⟨3, ![8, 8, 1024]⟩
abbrev SBw : Shape := ⟨3, ![8, 1024, 8]⟩
abbrev SI : Shape := ⟨1, ![32]⟩

/-- The adapter batch b uses: its index word, read unsigned, held to the eight adapters. -/
def adapter (sid : SI.Idx → BitVec 32) (b : Fin 32) : Fin 8 :=
  ⟨min (sid (ix1 b)).toNat 7, by omega⟩

/-- When the word is below 8 the adapter is the word. -/
theorem adapter_val (sid : SI.Idx → BitVec 32) (b : Fin 32) (h : (sid (ix1 b)).toNat < 8) :
    (adapter sid b).val = (sid (ix1 b)).toNat := by
  show min _ 7 = _
  omega

/-- The shared layer's product: x[b, s, ·] against row o of W. -/
def base (x : SX.Idx → EReal) (W : SW.Idx → EReal) (b : Fin 32) (s o : Fin 1024) : EReal :=
  ∑ k : Fin 1024, x (ix3 b s k) * W (ix2 o k)

/-- The down-projection through adapter e: x[b, s, ·] against row r of A[e]. -/
def down (x : SX.Idx → EReal) (A : SA.Idx → EReal) (e : Fin 8) (b : Fin 32) (s : Fin 1024) (r : Fin 8) : EReal :=
  ∑ k : Fin 1024, x (ix3 b s k) * A (ix3 e r k)

/-- The correction before scaling: the down-projection against row o of Bw[e]. -/
def corr (x : SX.Idx → EReal) (A : SA.Idx → EReal) (Bw : SBw.Idx → EReal) (e : Fin 8) (b : Fin 32) (s o : Fin 1024) : EReal :=
  ∑ r : Fin 8, down x A e b s r * Bw (ix3 e o r)

/-- One entry of the result. -/
def out (x : SX.Idx → EReal) (W : SW.Idx → EReal) (bias : SB.Idx → EReal) (A : SA.Idx → EReal) (Bw : SBw.Idx → EReal)
    (sid : SI.Idx → BitVec 32) (b : Fin 32) (s o : Fin 1024) : EReal :=
  (base x W b s o + bias (ix1 o)) + corr x A Bw (adapter sid b) b s o * Ideal.ofBits .f32 0x3E000000#32

/-- The result array. -/
def result (x : SX.Idx → EReal) (W : SW.Idx → EReal) (bias : SB.Idx → EReal) (A : SA.Idx → EReal) (Bw : SBw.Idx → EReal)
    (sid : SI.Idx → BitVec 32) : SX.Idx → EReal :=
  fun i => out x W bias A Bw sid (i 0) (i 1) (i 2)

end Cert.Spec

end
-- ==== Proof.KernelValue.lean ====
/-
  The idealized kernel's result array.

  The grid has one point per batch. At point t the pipeline hands the body the batch's [1, 1024, 1024] block
  of x, and — whole, every time — the weight, the two adapter stacks and the bias row, each as the host
  operations before the call left it: a narrowing cast of the argument (the identity at the ideal instance) or a
  reshape of the bias to one row. The body reads the batch's index word from the prefetched table, loads the
  slab that word names from each stack, and stores one block; the block is written back to rows t of the
  result. The blocks of the 32 points tile the result, so the array ends holding the specification's function.
-/
import proofs.«422767_j89489938579617_3_alg».proof.Defs
import proofs.«422767_j89489938579617_3_alg».proof.Proof.Gen.KernelIdeal.Frame
import proofs.«422767_j89489938579617_3_alg».proof.Proof.HypsKernelIdeal
import proofs.«422767_j89489938579617_3_alg».proof.Proof.Payload
import proofs.«422767_j89489938579617_3_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.KValue

open Cert.KernelIdeal Cert.KernelIdeal.Gen Cert.KernelIdeal.HypsOfPre
open Idealize.ShloMosaic Idealize.ShloMosaic.TcCoe Idealize.ShloMosaic.Tactic Idealize.SL.Sem Idealize.ShloMosaic.ValueIdx
open Idealize.ShloMosaic.Pipeline (Dat)

/-! ## What the body's one store leaves, for any staging memrefs and contents -/

section Piece
variable {F : FTy → Type} [FloatOps F]

/-- The output block after the body: the stored payload over the block of x, the weight, the slab of each
    adapter stack at the row the index word names, and the bias row. -/
theorem stored (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S8x8x1024 .bf16) (harg4 : arg4.IsWhole) (arg5 : Memref sig .tc .vmem S8x1024x8 .bf16) (harg5 : arg5.IsWhole) (arg6 : Memref sig .tc .vmem S1x1024 .f32) (harg6 : arg6.IsWhole) (arg7 : Memref sig .tc .vmem S1x1024x1024 .f32) (harg7 : arg7.IsWhole)
    (x0 : Vec F S1x1024x1024 .f32) (x1 : Vec F S1024x1024 .bf16) (x2 : Vec F S8x8x1024 .bf16) (x3 : Vec F S8x1024x8 .bf16) (x4 : Vec F S1x1024 .f32) (xt0 : TbBuf0 (F := F) c tbM0_0)
    (k0_hw1 : k0_chk1 (tbM0_0.view.readAt (Elt F) (Rect.unit (s := S32) (k0_off1 i) S1.size (k0_off1_inb i)).toLoadRect xt0 (Shape.Idx.first (numel1_S1.symm ▸ Nat.one_pos)))) :
    out0_A_5 c i arg2 harg2 arg3 harg3 arg4 harg4 arg5 harg5 arg6 harg6 arg7 harg7 x0 x1 x2 x3 x4 xt0 k0_hw1
      = k0_pay1 x0 x1
          (View.ld x2 (Rect.unit (s := S8x8x1024) (k0_off2 (tbM0_0.view.readAt (Elt F) (Rect.unit (s := S32) (k0_off1 i) S1.size (k0_off1_inb i)).toLoadRect xt0 (Shape.Idx.first (numel1_S1.symm ▸ Nat.one_pos)))) S1x8x1024.size (k0_off2_inb _ k0_hw1)))
          (View.ld x3 (Rect.unit (s := S8x1024x8) (k0_off3 (tbM0_0.view.readAt (Elt F) (Rect.unit (s := S32) (k0_off1 i) S1.size (k0_off1_inb i)).toLoadRect xt0 (Shape.Idx.first (numel1_S1.symm ▸ Nat.one_pos)))) S1x1024x8.size (k0_off3_inb _ k0_hw1)))
          x4 := by
  have hz3 : (![0, 0, 0] : Fin 3 → ℕ) = fun _ => 0 := by funext a; fin_cases a <;> rfl
  have hz2 : (![0, 0] : Fin 2 → ℕ) = fun _ => 0 := by funext a; fin_cases a <;> rfl
  unfold out0_A_5
  rw [View.read_writes_eq_canon _ _ _ (cover0_A_5 c i arg2 harg2 arg3 harg3 arg4 harg4 arg5 harg5 arg6 harg6 arg7 harg7 x0 x1 x2 x3 x4 xt0 k0_hw1)]
  unfold kernelRun0_A
  dsimp only
  sl_unfold_words
  rw [View.canon_unit_zero hz3]
  simp only [View.readAt_eq_ld, Memref.IsWhole.read_unread, View.ld_unit_zero (S := S1x1024x1024) hz3,
    View.ld_unit_zero (S := S1024x1024) hz2, View.ld_unit_zero (S := S1x1024) hz2]

end Piece

/-! ## The arrays the region finds, and the blocks it hands the body -/

variable (m : (ℓ : Loc nD τ sig) → Buf (Elt Ideal) ℓ) (ρ : Dev nD → PrngReg)

/-- The grid point as a batch number. -/
def bat (hO : Ok m) (t : Fin (cfgM m hO).N) : Fin 32 := ⟨t.val, Nat.lt_of_lt_of_eq t.isLt N_0⟩

/-- The weight as the region finds it: the argument (its narrowing cast is the identity here). -/
theorem V_w (c : Dev nD) : (V m c main_v0 : S1024x1024.Idx → EReal) = m ((c : Thread nD τ).loc main_arg1) := by
  dsimp only [V, hostOps0]; after_results; rfl
/-- The down-projection stack as the region finds it: the argument. -/
theorem V_a (c : Dev nD) : (V m c main_v1 : S8x8x1024.Idx → EReal) = m ((c : Thread nD τ).loc main_arg3) := by
  dsimp only [V, hostOps0]; after_results; rfl
/-- The up-projection stack as the region finds it: the argument. -/
theorem V_b (c : Dev nD) : (V m c main_v2 : S8x1024x8.Idx → EReal) = m ((c : Thread nD τ).loc main_arg4) := by
  dsimp only [V, hostOps0]; after_results; rfl
/-- The bias as the region finds it: the argument as one row. -/
theorem V_bias (c : Dev nD) : (V m c main_v3 : S1x1024.Idx → EReal) = shapeCast S1x1024 (m ((c : Thread nD τ).loc main_arg2)) shapeCasts_S1024_S1x1024 := by
  dsimp only [V, hostOps0]; after_results; rfl

/-- Point t's block of x, read at y, is x at batch t. -/
theorem x_block (hO : Ok m) (c : Dev nD) (t : Fin (cfgM m hO).N) (y : S1x1024x1024.Idx) :
    iblk m hO c 0 t y = m ((c : Thread nD τ).loc main_arg0) (ix3 (bat m hO t) (y 1) (y 2)) := by
  unfold iblk
  show V m c main_arg0 ((((cfgM m hO).win 0).blk t).view.emb y) = m _ _
  refine (congrFun (V_main_arg0 m c) _).trans ?_
  congr 1
  funext a
  apply Fin.ext
  have hidx : ∀ t : Fin grid0.N, cc0_transform_0 (grid0.coords t) (0 : Fin 3) = t.val ∧ cc0_transform_0 (grid0.coords t) (1 : Fin 3) = 0 ∧ cc0_transform_0 (grid0.coords t) (2 : Fin 3) = 0 := by
    decide +kernel
  have hy0 : (y 0).val = 0 := by
    have := (y 0).isLt
    have e : S1x1024x1024.size 0 = 1 := by decide
    omega
  match a with
  | ⟨0, _⟩ =>
    show cc0_transform_0 (grid0.coords t) (0 : Fin 3) * 1 + 1 * (y 0).val = t.val
    rw [(hidx t).1, hy0]; omega
  | ⟨1, _⟩ =>
    show cc0_transform_0 (grid0.coords t) (1 : Fin 3) * 1024 + 1 * (y 1).val = (y 1).val
    rw [(hidx t).2.1]; omega
  | ⟨2, _⟩ =>
    show cc0_transform_0 (grid0.coords t) (2 : Fin 3) * 1024 + 1 * (y 2).val = (y 2).val
    rw [(hidx t).2.2]; omega

/-- The weight's block is the whole weight, at every point. -/
theorem w_block (hO : Ok m) (c : Dev nD) (t : Fin (cfgM m hO).N) (y : S1024x1024.Idx) :
    iblk m hO c 1 t y = m ((c : Thread nD τ).loc main_arg1) y := by
  unfold iblk
  show V m c main_v0 ((((cfgM m hO).win 1).blk t).view.emb y) = _
  refine (congrFun (V_w m c) _).trans ?_
  congr 1
  funext a
  apply Fin.ext
  have hidx : ∀ t : Fin grid0.N, cc0_transform_1 (grid0.coords t) (0 : Fin 2) = 0 ∧ cc0_transform_1 (grid0.coords t) (1 : Fin 2) = 0 := by
    decide +kernel
  match a with
  | ⟨0, _⟩ =>
    show cc0_transform_1 (grid0.coords t) (0 : Fin 2) * 1024 + 1 * (y 0).val = (y 0).val
    rw [(hidx t).1]; omega
  | ⟨1, _⟩ =>
    show cc0_transform_1 (grid0.coords t) (1 : Fin 2) * 1024 + 1 * (y 1).val = (y 1).val
    rw [(hidx t).2]; omega

/-- The down-projection stack's block is the whole stack. -/
theorem a_block (hO : Ok m) (c : Dev nD) (t : Fin (cfgM m hO).N) (y : S8x8x1024.Idx) :
    iblk m hO c 2 t y = m ((c : Thread nD τ).loc main_arg3) y := by
  unfold iblk
  show V m c main_v1 ((((cfgM m hO).win 2).blk t).view.emb y) = _
  refine (congrFun (V_a m c) _).trans ?_
  congr 1
  funext a
  apply Fin.ext
  have hidx : ∀ t : Fin grid0.N, cc0_transform_2 (grid0.coords t) (0 : Fin 3) = 0 ∧ cc0_transform_2 (grid0.coords t) (1 : Fin 3) = 0 ∧ cc0_transform_2 (grid0.coords t) (2 : Fin 3) = 0 := by
    decide +kernel
  match a with
  | ⟨0, _⟩ =>
    show cc0_transform_2 (grid0.coords t) (0 : Fin 3) * 8 + 1 * (y 0).val = (y 0).val
    rw [(hidx t).1]; omega
  | ⟨1, _⟩ =>
    show cc0_transform_2 (grid0.coords t) (1 : Fin 3) * 8 + 1 * (y 1).val = (y 1).val
    rw [(hidx t).2.1]; omega
  | ⟨2, _⟩ =>
    show cc0_transform_2 (grid0.coords t) (2 : Fin 3) * 1024 + 1 * (y 2).val = (y 2).val
    rw [(hidx t).2.2]; omega

/-- The up-projection stack's block is the whole stack. -/
theorem b_block (hO : Ok m) (c : Dev nD) (t : Fin (cfgM m hO).N) (y : S8x1024x8.Idx) :
    iblk m hO c 3 t y = m ((c : Thread nD τ).loc main_arg4) y := by
  unfold iblk
  show V m c main_v2 ((((cfgM m hO).win 3).blk t).view.emb y) = _
  refine (congrFun (V_b m c) _).trans ?_
  congr 1
  funext a
  apply Fin.ext
  have hidx : ∀ t : Fin grid0.N, cc0_transform_3 (grid0.coords t) (0 : Fin 3) = 0 ∧ cc0_transform_3 (grid0.coords t) (1 : Fin 3) = 0 ∧ cc0_transform_3 (grid0.coords t) (2 : Fin 3) = 0 := by
    decide +kernel
  match a with
  | ⟨0, _⟩ =>
    show cc0_transform_3 (grid0.coords t) (0 : Fin 3) * 8 + 1 * (y 0).val = (y 0).val
    rw [(hidx t).1]; omega
  | ⟨1, _⟩ =>
    show cc0_transform_3 (grid0.coords t) (1 : Fin 3) * 1024 + 1 * (y 1).val = (y 1).val
    rw [(hidx t).2.1]; omega
  | ⟨2, _⟩ =>
    show cc0_transform_3 (grid0.coords t) (2 : Fin 3) * 8 + 1 * (y 2).val = (y 2).val
    rw [(hidx t).2.2]; omega

/-- The bias row's block, read at (u, o), is entry o of the bias. -/
theorem bias_block (hO : Ok m) (c : Dev nD) (t : Fin (cfgM m hO).N) (u : Fin 1) (o : Fin 1024) :
    iblk m hO c 4 t (ix2 u o) = m ((c : Thread nD τ).loc main_arg2) (ix1 o) := by
  unfold iblk
  show V m c main_v3 ((((cfgM m hO).win 4).blk t).view.emb (ix2 u o)) = _
  refine (congrFun (V_bias m c) _).trans ?_
  have hidx : ∀ t : Fin grid0.N, cc0_transform_4 (grid0.coords t) (0 : Fin 2) = 0 ∧ cc0_transform_4 (grid0.coords t) (1 : Fin 2) = 0 := by
    decide +kernel
  have e : (((cfgM m hO).win 4).blk t).view.emb (ix2 u o) = (ix2 u o : S1x1024.Idx) := by
    funext a
    apply Fin.ext
    match a with
    | ⟨0, _⟩ =>
      show cc0_transform_4 (grid0.coords t) (0 : Fin 2) * 1 + 1 * u.val = u.val
      rw [(hidx t).1]; omega
    | ⟨1, _⟩ =>
      show cc0_transform_4 (grid0.coords t) (1 : Fin 2) * 1024 + 1 * o.val = o.val
      rw [(hidx t).2]; omega
  rw [e]
  exact shapeCast_a_1a_apply _ _ u o

/-- The index word the body reads at point t is the table's entry t. -/
theorem word_eq (hO : Ok m) (t : Fin (cfgM m hO).N) :
    tbM0_0.view.readAt (Elt Ideal) (Rect.unit (s := S32) (k0_off1 (grid0.coords t)) S1.size (k0_off1_inb (grid0.coords t))).toLoadRect (tbl m 0) (Shape.Idx.first (numel1_S1.symm ▸ Nat.one_pos))
      = m ((0 : Dev nD).tc.loc main_arg5) (ix1 (bat m hO t)) := by
  show tbM0_0.view.readAt (Elt Ideal) (Rect.unit (s := S32) (k0_off1 (grid0.coords t)) S1.size (k0_off1_inb (grid0.coords t))).toLoadRect (V m (0 : Dev nD) main_arg5) _ = _
  rw [V_main_arg5, View.readAt_eq_ld]
  show View.read (Elt Ideal) tbM0_0.view (m ((0 : Dev nD).tc.loc main_arg5)) _ = _
  rw [View.read_apply]
  simp only [cast_eq]
  congr 1
  funext a
  apply Fin.ext
  have hoff : ∀ t : Fin grid0.N, k0_off1 (grid0.coords t) (0 : Fin 1) = t.val := by decide +kernel
  match a with
  | ⟨0, _⟩ =>
    show k0_off1 (grid0.coords t) (0 : Fin 1) + 1 * (Shape.Idx.first (s := S1) (numel1_S1.symm ▸ Nat.one_pos) (0 : Fin 1)).val = t.val
    have h0 : (Shape.Idx.first (s := S1) (numel1_S1.symm ▸ Nat.one_pos) (0 : Fin 1)).val = 0 := by
      have := (Shape.Idx.first (s := S1) (numel1_S1.symm ▸ Nat.one_pos) (0 : Fin 1)).isLt
      have e : S1.size 0 = 1 := by decide
      omega
    rw [hoff t, h0]; omega

/-- The output window's block at point t, at (u, s, o), sits at (t, s, o) of the result. -/
theorem out_emb (hO : Ok m) (t : Fin (cfgM m hO).N) (u : Fin 1) (s o : Fin 1024) :
    (((cfgM m hO).win 5).blk t).view.emb (ix3 u s o : S1x1024x1024.Idx) = (ix3 (bat m hO t) s o : S32x1024x1024.Idx) := by
  funext a
  apply Fin.ext
  have hidx : ∀ t : Fin grid0.N, cc0_transform_5 (grid0.coords t) (0 : Fin 3) = t.val ∧ cc0_transform_5 (grid0.coords t) (1 : Fin 3) = 0 ∧ cc0_transform_5 (grid0.coords t) (2 : Fin 3) = 0 := by
    decide +kernel
  match a with
  | ⟨0, _⟩ =>
    show cc0_transform_5 (grid0.coords t) (0 : Fin 3) * 1 + 1 * u.val = t.val
    rw [(hidx t).1]; omega
  | ⟨1, _⟩ =>
    show cc0_transform_5 (grid0.coords t) (1 : Fin 3) * 1024 + 1 * s.val = s.val
    rw [(hidx t).2.1]; omega
  | ⟨2, _⟩ =>
    show cc0_transform_5 (grid0.coords t) (2 : Fin 3) * 1024 + 1 * o.val = o.val
    rw [(hidx t).2.2]; omega

/-- Membership in the output window's block at point t, coordinate by coordinate. -/
theorem mem_blk (hO : Ok m) (t : Fin (cfgM m hO).N) (i : S32x1024x1024.Idx) :
    i ∈ (((cfgM m hO).win 5).blk t).view.set ↔ ∀ a : Fin 3, cc0_transform_5 (grid0.coords t) a * S1x1024x1024.size a ≤ (i a).val
      ∧ (i a).val < cc0_transform_5 (grid0.coords t) a * S1x1024x1024.size a + S1x1024x1024.size a := by
  show i ∈ ((View.whole main_v4).slice ((win0 (adm m hO) 5).rect t)).set ↔ _
  rw [View.set_slice_whole, Rect.mem_set_unit]
  exact Iff.rfl

/-- Every entry of the result lies in the block of the point its batch names. -/
theorem cover (hO : Ok m) (i : S32x1024x1024.Idx) :
    ∃ t : Fin (cfgM m hO).N, ((cfgM m hO).win 5).flush t = true ∧ i ∈ (((cfgM m hO).win 5).blk t).view.set := by
  have hidx : ∀ t : Fin grid0.N, cc0_transform_5 (grid0.coords t) (0 : Fin 3) = t.val ∧ cc0_transform_5 (grid0.coords t) (1 : Fin 3) = 0 ∧ cc0_transform_5 (grid0.coords t) (2 : Fin 3) = 0 := by
    decide +kernel
  have hi0 : (i 0).val < 32 := (i 0).isLt
  have hi1 : (i 1).val < 1024 := (i 1).isLt
  have hi2 : (i 2).val < 1024 := (i 2).isLt
  refine ⟨(⟨(i 0).val, Nat.lt_of_lt_of_eq hi0 N_0.symm⟩ : Fin (cfgM m hO).N), flush0_5 (adm m hO) _, ?_⟩
  rw [mem_blk]
  intro a
  match a with
  | ⟨0, _⟩ =>
    show cc0_transform_5 (grid0.coords ⟨(i 0).val, _⟩) (0 : Fin 3) * 1 ≤ (i 0).val ∧ (i 0).val < cc0_transform_5 (grid0.coords ⟨(i 0).val, _⟩) (0 : Fin 3) * 1 + 1
    rw [(hidx ⟨(i 0).val, _⟩).1]
    show (i 0).val * 1 ≤ (i 0).val ∧ (i 0).val < (i 0).val * 1 + 1
    omega
  | ⟨1, _⟩ =>
    show cc0_transform_5 (grid0.coords ⟨(i 0).val, _⟩) (1 : Fin 3) * 1024 ≤ (i 1).val ∧ (i 1).val < cc0_transform_5 (grid0.coords ⟨(i 0).val, _⟩) (1 : Fin 3) * 1024 + 1024
    rw [(hidx ⟨(i 0).val, _⟩).2.1]; omega
  | ⟨2, _⟩ =>
    show cc0_transform_5 (grid0.coords ⟨(i 0).val, _⟩) (2 : Fin 3) * 1024 ≤ (i 2).val ∧ (i 2).val < cc0_transform_5 (grid0.coords ⟨(i 0).val, _⟩) (2 : Fin 3) * 1024 + 1024
    rw [(hidx ⟨(i 0).val, _⟩).2.2]; omega

/-! ## The block a point stores, at an index -/

/-- A load of one slab of the down-projection stack at the row a word below 8 names. -/
theorem slab_A (X : Vec Ideal S8x8x1024 .bf16) (w : BitVec 32) (hw : w.toNat < 8)
    (inb : ∀ a, (k0_off2 w) a + S1x8x1024.size a ≤ S8x8x1024.size a) (u : Fin 1) (r : Fin 8) (k : Fin 1024) :
    View.ld X (Rect.unit (s := S8x8x1024) (k0_off2 w) S1x8x1024.size inb) (ix3 u r k) = X (ix3 (⟨w.toNat, hw⟩ : Fin 8) r k) := by
  show X _ = X _
  congr 1
  funext a
  apply Fin.ext
  match a with
  | ⟨0, _⟩ => show (Scalar.indexCast w).toNat + 1 * u.val = w.toNat; show w.toNat + 1 * u.val = w.toNat; omega
  | ⟨1, _⟩ => show 0 + 1 * r.val = r.val; omega
  | ⟨2, _⟩ => show 0 + 1 * k.val = k.val; omega

/-- A load of one slab of the up-projection stack at the row a word below 8 names. -/
theorem slab_B (X : Vec Ideal S8x1024x8 .bf16) (w : BitVec 32) (hw : w.toNat < 8)
    (inb : ∀ a, (k0_off3 w) a + S1x1024x8.size a ≤ S8x1024x8.size a) (u : Fin 1) (o : Fin 1024) (r : Fin 8) :
    View.ld X (Rect.unit (s := S8x1024x8) (k0_off3 w) S1x1024x8.size inb) (ix3 u o r) = X (ix3 (⟨w.toNat, hw⟩ : Fin 8) o r) := by
  show X _ = X _
  congr 1
  funext a
  apply Fin.ext
  match a with
  | ⟨0, _⟩ => show (Scalar.indexCast w).toNat + 1 * u.val = w.toNat; show w.toNat + 1 * u.val = w.toNat; omega
  | ⟨1, _⟩ => show 0 + 1 * o.val = o.val; omega
  | ⟨2, _⟩ => show 0 + 1 * r.val = r.val; omega

/-- The specification's result array over the arguments as launched. -/
def val (c : Dev nD) : Buf (Elt Ideal) ((c : Thread nD τ).loc main_v4) :=
  Cert.Spec.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The blocks point t is handed, and the index word it reads, under their literal types. -/
abbrev xb (hO : Ok m) (c : Dev nD) (t : Fin (cfgM m hO).N) : Vec Ideal S1x1024x1024 .f32 := iblk m hO c 0 t
abbrev wb (hO : Ok m) (c : Dev nD) (t : Fin (cfgM m hO).N) : Vec Ideal S1024x1024 .bf16 := iblk m hO c 1 t
abbrev ab (hO : Ok m) (c : Dev nD) (t : Fin (cfgM m hO).N) : Vec Ideal S8x8x1024 .bf16 := iblk m hO c 2 t
abbrev bb (hO : Ok m) (c : Dev nD) (t : Fin (cfgM m hO).N) : Vec Ideal S8x1024x8 .bf16 := iblk m hO c 3 t
abbrev cb (hO : Ok m) (c : Dev nD) (t : Fin (cfgM m hO).N) : Vec Ideal S1x1024 .f32 := iblk m hO c 4 t
abbrev wd (hO : Ok m) (t : Fin (cfgM m hO).N) : BitVec 32 :=
  tbM0_0.view.readAt (Elt Ideal) (Rect.unit (s := S32) (k0_off1 (grid0.coords t)) S1.size (k0_off1_inb (grid0.coords t))).toLoadRect (tbl m 0) (Shape.Idx.first (numel1_S1.symm ▸ Nat.one_pos))

variable (hk : ∀ k : S32.Idx, (m ((0 : Dev nD).tc.loc main_arg5) k).toNat < 8)
include hk

/-- Entry (u, s, o) of the block point t stores is the specification's entry (t, s, o). -/
theorem outs_apply (hO : Ok m) (hH : Hyps m hO) (c : Dev nD) (t : Fin (cfgM m hO).N) (u : Fin 1) (s o : Fin 1024) :
    outsAt0 m hO hH c t (ix3 u s o) = val m c (ix3 (bat m hO t) s o) := by
  obtain rfl : c = 0 := Subsingleton.elim _ _
  have hw := hk (ix1 (bat m hO t))
  have ewd : wd m hO t = m ((0 : Dev nD).tc.loc main_arg5) (ix1 (bat m hO t)) := word_eq m hO t
  have hw' : (wd m hO t).toNat < 8 := by rw [ewd]; exact hw
  -- the row the word names is the specification's adapter
  have hrow : (⟨(wd m hO t).toNat, hw'⟩ : Fin 8) = Cert.Spec.adapter (m ((0 : Dev nD).tc.loc main_arg5)) (bat m hO t) := by
    apply Fin.ext
    show (wd m hO t).toNat = min (m ((0 : Dev nD).tc.loc main_arg5) (ix1 (bat m hO t))).toNat 7
    rw [ewd]; omega
  have ex : ∀ k : Fin 1024, xb m hO 0 t (ix3 (0 : Fin 1) s k) = m ((0 : Dev nD).tc.loc main_arg0) (ix3 (bat m hO t) s k) :=
    fun k => x_block m hO 0 t _
  have ew : ∀ k : Fin 1024, wb m hO 0 t (ix2 o k) = m ((0 : Dev nD).tc.loc main_arg1) (ix2 o k) := fun k => w_block m hO 0 t _
  have ec : cb m hO 0 t (ix2 (0 : Fin 1) o) = m ((0 : Dev nD).tc.loc main_arg2) (ix1 o) := bias_block m hO 0 t 0 o
  have eA : ∀ (r : Fin 8) (k : Fin 1024),
      View.ld (ab m hO 0 t) (Rect.unit (s := S8x8x1024) (k0_off2 (wd m hO t)) S1x8x1024.size (k0_off2_inb _ (Hyps.c0 hH 0 t))) (ix3 (0 : Fin 1) r k)
        = m ((0 : Dev nD).tc.loc main_arg3) (ix3 (Cert.Spec.adapter (m ((0 : Dev nD).tc.loc main_arg5)) (bat m hO t)) r k) :=
    fun r k => (slab_A (ab m hO 0 t) (wd m hO t) hw' _ 0 r k).trans
      ((a_block m hO 0 t _).trans (congrArg (fun e => m ((0 : Dev nD).tc.loc main_arg3) (ix3 e r k)) hrow))
  have eB : ∀ r : Fin 8,
      View.ld (bb m hO 0 t) (Rect.unit (s := S8x1024x8) (k0_off3 (wd m hO t)) S1x1024x8.size (k0_off3_inb _ (Hyps.c0 hH 0 t))) (ix3 (0 : Fin 1) o r)
        = m ((0 : Dev nD).tc.loc main_arg4) (ix3 (Cert.Spec.adapter (m ((0 : Dev nD).tc.loc main_arg5)) (bat m hO t)) o r) :=
    fun r => (slab_B (bb m hO 0 t) (wd m hO t) hw' _ 0 o r).trans
      ((b_block m hO 0 t _).trans (congrArg (fun e => m ((0 : Dev nD).tc.loc main_arg4) (ix3 e o r)) hrow))
  unfold outsAt0
  refine (congrFun (stored (F := Ideal) 0 (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t)
    (xb m hO 0 t) (wb m hO 0 t) (ab m hO 0 t) (bb m hO 0 t) (cb m hO 0 t) (tbl m 0) (Hyps.c0 hH 0 t)) (ix3 u s o)).trans ?_
  refine (Cert.KernelIdeal.Payload.pay_apply (xb m hO 0 t) (wb m hO 0 t)
    (View.ld (ab m hO 0 t) (Rect.unit (s := S8x8x1024) (k0_off2 (wd m hO t)) S1x8x1024.size (k0_off2_inb _ (Hyps.c0 hH 0 t))))
    (View.ld (bb m hO 0 t) (Rect.unit (s := S8x1024x8) (k0_off3 (wd m hO t)) S1x1024x8.size (k0_off3_inb _ (Hyps.c0 hH 0 t))))
    (cb m hO 0 t) u s o).trans ?_
  simp only [ex, ew, ec, eA, eB]
  rfl

/-! ## From the blocks to the array -/

/-- What point t writes back is the specification's array read through the point's block. -/
theorem flushed_eq (hO : Ok m) (hH : Hyps m hO) (c : Dev nD) (t : Fin (cfgM m hO).N) (_ : ((cfgM m hO).win 5).flush t = true) :
    (dats m hO hH 0 c).flushed 5 t = (((cfgM m hO).win 5).blk t).view.read (Elt Ideal) (val m c) := by
  show ((cfgM m hO).win 5).cut (grid0.coords t) ((dats m hO hH 0 c).after 5 t) = _
  rw [after0_5]
  refine funext fun (y : S1x1024x1024.Idx) => ?_
  obtain ⟨u, s, o, rfl⟩ : ∃ (u : Fin 1) (s o : Fin 1024), y = ix3 u s o := ⟨y 0, y 1, y 2, eq_ix3 y⟩
  show outsAt0 m hO hH c t (ix3 u s o) = val m c ((((cfgM m hO).win 5).blk t).view.emb (ix3 u s o : S1x1024x1024.Idx))
  rw [out_emb m hO t u s o]
  exact outs_apply m hk hO hH c t u s o

/-- The blocks of the 32 points tile the result, so it ends holding the specification's array. -/
theorem final (hO : Ok m) (hH : Hyps m hO) (c : Dev nD) : (dats m hO hH 0 c).arrAt 5 (cfgM m hO).N = val m c :=
  (dats m hO hH 0 c).arrAt_eq_of_cover 5 (val m c) (flushed_eq m hk hO hH c) (cover m hO)

/-- The idealized kernel's run with its result named: every weakly fair execution ends with the result at the
    specification's array and the arguments as launched. -/
theorem run (hO : Ok m) (hH : Hyps m hO) :
    θ_run defs (onTc (τ := τ) (main (F := Ideal))) ⟨m, fun _ => 0, ρ⟩ fun r => ∀ c : Dev nD,
      r.2.mem ((c.tc : Thread nD τ).loc main_v4) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have H := run_main m ρ hO hH
  refine (θ_run defs _ _).mono (fun _ hq c => ?_) H
  exact ⟨((hq c).1 5).trans (final m hk hO hH c),
    ((hq c).1 0).trans (((dats m hO hH 0 c).arrAt_in 0 rfl _).trans ((A_eq m hO hH c 0).trans (V_main_arg0 m c))),
    ((hq c).2 main_arg1 (by decide : main_arg1 ∈ Pipeline.restRefs sig spec0)).trans (V_main_arg1 m c),
    ((hq c).2 main_arg2 (by decide : main_arg2 ∈ Pipeline.restRefs sig spec0)).trans (V_main_arg2 m c),
    ((hq c).2 main_arg3 (by decide : main_arg3 ∈ Pipeline.restRefs sig spec0)).trans (V_main_arg3 m c),
    ((hq c).2 main_arg4 (by decide : main_arg4 ∈ Pipeline.restRefs sig spec0)).trans (V_main_arg4 m c),
    ((hq c).2 main_arg5 (by decide : main_arg5 ∈ Pipeline.restRefs sig spec0)).trans (V_main_arg5 m c)⟩

end Cert.KernelIdeal.KValue

end
-- ==== Proof.LibGatherRows3.lean ====
/-
  A gather of whole rank-2 slabs out of a rank-3 stack, read at an index.

  A stack of N slabs, each R by C, is read through a column of E integer index words: slab e of the result is
  the stack's slab at the e-th word, the word read as a signed integer and held to [0, N - 1]. This is what
  `stack[idx]` over the leading axis lowers to. Stated for arbitrary extents, from the dimension numbers alone.
-/
import Idealize.ShloMosaic.PureOps.ShapeOps
import Idealize.ShloMosaic.Lib.ValueIdx

noncomputable section

namespace Cert.LibSlabs

open Idealize.ShloMosaic Idealize.ShloMosaic.ValueIdx

/-- A slab gather read at (e, r, c): the stack's entry (r, c) of the slab the e-th start index names, that index
    read as a signed integer and held to [0, N - 1]. -/
theorem gather_slabs {α : Type} {N R C E w : Nat} (hN : 0 < N)
    (d : GatherDims ⟨3, ![N, R, C]⟩ ⟨2, ![E, 1]⟩ ⟨3, ![E, R, C]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, R, C]⟩ : Shape).Idx → α) (idx : IVec ⟨2, ![E, 1]⟩ w) (e : Fin E) (r : Fin R) (c : Fin C) :
    Host.gather d x idx (ix3 e r c) = x (ix3 ⟨min (idx (ix2 e 0)).toInt.toNat (N - 1), by omega⟩ r c) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the slab axis is collapsed: only the held start index counts, and the slice there is one slab thick
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, r, c) is read at (e, 0)
      funext b
      apply Fin.ext
      match b with
      | ⟨0, _⟩ => rfl
      | ⟨1, _⟩ => rfl
    · next hn => exact absurd (List.mem_singleton.mpr rfl) hn
  | ⟨1, _⟩ =>
    -- a row axis: no start index, no batching; the offset coordinate is the result's row
    show 0 + 0 + r.val = r.val
    omega
  | ⟨2, _⟩ =>
    -- a column axis: likewise, the result's column
    show 0 + 0 + c.val = c.val
    omega

end Cert.LibSlabs

end
-- ==== Proof.RefValue.lean ====
/-
  The reference's result, read at an index.

  jnp's stack[subject_id] first wraps a negative index (adds 8 where the word is below 0) and then gathers
  with the start index held to [0, 7]. Under the precondition every word is in [0, 8): the wrap is not taken,
  the signed and unsigned readings agree, and holding to 7 changes nothing — the slab gathered for batch b is
  the adapter the word names. What remains is three contractions, each a plain sum at the ideal instance, a
  broadcast bias and a broadcast scale, composed in the order the specification writes them.
-/
import proofs.«422767_j89489938579617_3_alg».proof.Proof.Gen.ReferenceIdeal.Read
import proofs.«422767_j89489938579617_3_alg».proof.Proof.Spec
import proofs.«422767_j89489938579617_3_alg».proof.Proof.LibGatherRows3
import proofs.«422767_j89489938579617_3_alg».proof.Proof.Range
import Idealize.ShloMosaic.Lib.ValueIdx
import Idealize.ShloMosaic.PureOps.Ideal.Laws

noncomputable section

namespace Cert.RefValue

open Cert.ReferenceIdeal Cert.ReferenceIdeal.Gen Cert.ReferenceIdeal.Read
open Idealize.ShloMosaic Idealize.ShloMosaic.ValueIdx

variable (x5 : (⟨S32, .i32⟩ : BufTy).Contents (Elt Ideal))

/-- The index column the first gather reads, at batch b, is the batch's word: the wrap is not taken. -/
theorem column_A (b : Fin 32) (h : (x5 (ix1 b)).toNat < 8) :
    val_main_v9 (F := Ideal) x5 (ix2 b 0) = x5 (ix1 b) := by
  have e : idx_main_v9 (ix2 b (0 : Fin 1)) = ix1 b := funext fun a => by match a with | ⟨0, _⟩ => rfl
  rw [val_main_v9_apply, e, val_main_v8_apply, val_main_v5_apply, val_main_v4_apply, val_main_c_apply]
  exact if_neg (Cert.Range.not_slt_zero _ h)

/-- The same for the column the second gather reads. -/
theorem column_B (b : Fin 32) (h : (x5 (ix1 b)).toNat < 8) :
    val_main_v16 (F := Ideal) x5 (ix2 b 0) = x5 (ix1 b) := by
  have e : idx_main_v16 (ix2 b (0 : Fin 1)) = ix1 b := funext fun a => by match a with | ⟨0, _⟩ => rfl
  rw [val_main_v16_apply, e, val_main_v15_apply, val_main_v12_apply, val_main_v11_apply, val_main_c_1_apply]
  exact if_neg (Cert.Range.not_slt_zero _ h)

/-- A word below 8, read signed and held to 7, names the adapter of the specification. -/
theorem held (w : BitVec 32) (b : Fin 32) (hw : w = x5 (ix1 b)) (h : (x5 (ix1 b)).toNat < 8) (p : min w.toInt.toNat (8 - 1) < 8) :
    (⟨min w.toInt.toNat (8 - 1), p⟩ : Fin 8) = Cert.Spec.adapter x5 b := by
  subst hw
  apply Fin.ext
  show min _ (8 - 1) = min _ 7
  rw [Cert.Range.toInt_toNat _ h]

variable (hk : ∀ b : Fin 32, (x5 (ix1 b)).toNat < 8)
include hk

/-- The gathered down-projection stack at (b, r, k) is entry (r, k) of the batch's adapter. -/
theorem gathered_A (x3 : (⟨S8x8x1024, .f32⟩ : BufTy).Contents (Elt Ideal)) (b : Fin 32) (r : Fin 8) (k : Fin 1024) :
    val_main_v10 (F := Ideal) x3 x5 (ix3 b r k) = x3 (ix3 (Cert.Spec.adapter x5 b) r k) := by
  unfold val_main_v10
  rw [Cert.LibSlabs.gather_slabs (by decide) gather_S8x8x1024_S32x1_S32x8x1024_12_0_n_n_0_1_181024 rfl rfl rfl rfl rfl rfl]
  exact congrArg (fun e => x3 (ix3 e r k)) (held x5 _ b (column_A x5 b (hk b)) (hk b) _)

/-- The gathered up-projection stack at (b, o, r) is entry (o, r) of the batch's adapter. -/
theorem gathered_B (x4 : (⟨S8x1024x8, .f32⟩ : BufTy).Contents (Elt Ideal)) (b : Fin 32) (o : Fin 1024) (r : Fin 8) :
    val_main_v17 (F := Ideal) x4 x5 (ix3 b o r) = x4 (ix3 (Cert.Spec.adapter x5 b) o r) := by
  unfold val_main_v17
  rw [Cert.LibSlabs.gather_slabs (by decide) gather_S8x1024x8_S32x1_S32x1024x8_12_0_n_n_0_1_110248 rfl rfl rfl rfl rfl rfl]
  exact congrArg (fun e => x4 (ix3 e o r)) (held x5 _ b (column_B x5 b (hk b)) (hk b) _)

/-- The reference's last stage is the specification's result array. -/
theorem result_eq (x0 : (⟨S32x1024x1024, .f32⟩ : BufTy).Contents (Elt Ideal)) (x1 : (⟨S1024x1024, .f32⟩ : BufTy).Contents (Elt Ideal))
    (x2 : (⟨S1024, .f32⟩ : BufTy).Contents (Elt Ideal)) (x3 : (⟨S8x8x1024, .f32⟩ : BufTy).Contents (Elt Ideal))
    (x4 : (⟨S8x1024x8, .f32⟩ : BufTy).Contents (Elt Ideal)) :
    val_main_v22 (F := Ideal) x0 x1 x2 x3 x4 x5 = Cert.Spec.result x0 x1 x2 x3 x4 x5 := by
  funext i
  obtain ⟨b, s, o, rfl⟩ : ∃ (b : Fin 32) (s o : Fin 1024), i = ix3 b s o := ⟨i 0, i 1, i 2, eq_ix3 i⟩
  have e0l : ∀ k : Fin 1024, lidx_main_v0 (ix3 b s o) k = ix3 b s k := fun k => funext fun a => by
    match a with | ⟨0, _⟩ => rfl | ⟨1, _⟩ => rfl | ⟨2, _⟩ => rfl
  have e0r : ∀ k : Fin 1024, ridx_main_v0 (ix3 b s o) k = ix2 o k := fun k => funext fun a => by
    match a with | ⟨0, _⟩ => rfl | ⟨1, _⟩ => rfl
  have eb : idx_main_v1 (idx_main_v2 (ix3 b s o)) = ix1 o := funext fun a => by match a with | ⟨0, _⟩ => rfl
  have e18l : ∀ (r : Fin 8) (k : Fin 1024), lidx_main_v18 (lidx_main_v19 (ix3 b s o) r) k = ix3 b s k := fun r k => funext fun a => by
    match a with | ⟨0, _⟩ => rfl | ⟨1, _⟩ => rfl | ⟨2, _⟩ => rfl
  have e18r : ∀ (r : Fin 8) (k : Fin 1024), ridx_main_v18 (lidx_main_v19 (ix3 b s o) r) k = ix3 b r k := fun r k => funext fun a => by
    match a with | ⟨0, _⟩ => rfl | ⟨1, _⟩ => rfl | ⟨2, _⟩ => rfl
  have e19r : ∀ r : Fin 8, ridx_main_v19 (ix3 b s o) r = ix3 b o r := fun r => funext fun a => by
    match a with | ⟨0, _⟩ => rfl | ⟨1, _⟩ => rfl | ⟨2, _⟩ => rfl
  rw [val_main_v22_apply, val_main_v3_apply, val_main_v21_apply, val_main_v0_apply, val_main_v2_apply, val_main_v1_apply,
    val_main_v19_apply, val_main_v20_apply, val_main_cst_apply]
  simp only [val_main_v18_apply, e0l, e0r, eb, e18l, e18r, e19r, gathered_A x5 hk, gathered_B x5 hk,
    Ideal.addf_def, Ideal.mulf_def, Ideal.ofBits_def]
  rfl

end Cert.RefValue

end
-- ==== Proof.lean ====
/-
  A shared linear layer with a per-batch rank-8 correction, against its jnp reference, over the extended reals.

  Both programs compute, for batch b, position s and output feature o,

      (Σ_k x[b, s, k] · W[o, k] + bias[o]) + (Σ_r (Σ_k x[b, s, k] · A[e, r, k]) · Bw[e, o, r]) · (1/8 as a binary word)

  with e the adapter the batch's index word names. The kernel does one batch per grid point, reads the word from
  a prefetched table and loads the adapter's two slabs by it; the reference gathers the slabs for all batches at
  once and contracts with a batch axis. The narrowing casts the kernel makes are the identity on the extended
  reals, every contraction is a plain sum there, and both programs add the bias before the scaled correction, so
  the two results are one expression: no distributive law, and so no finiteness, is used.

  The precondition also says every index word is in [0, 8). The kernel assumes exactly that of the word it reads
  (its two slab loads must lie inside their stacks), which is what its two frames need; for the value it makes
  jnp's wrap of a negative index and its clamp of the start index both leave the word alone.
-/
import proofs.«422767_j89489938579617_3_alg».proof.Defs
import proofs.«422767_j89489938579617_3_alg».proof.Proof.Gen.Kernel
import proofs.«422767_j89489938579617_3_alg».proof.Proof.Gen.Kernel.Frame
import proofs.«422767_j89489938579617_3_alg».proof.Proof.Gen.KernelIdeal
import proofs.«422767_j89489938579617_3_alg».proof.Proof.Gen.KernelIdeal.Frame
import proofs.«422767_j89489938579617_3_alg».proof.Proof.Gen.ReferenceIdeal
import proofs.«422767_j89489938579617_3_alg».proof.Proof.Gen.ReferenceIdeal.Run
import proofs.«422767_j89489938579617_3_alg».proof.Proof.Gen.ReferenceIdeal.Read
import proofs.«422767_j89489938579617_3_alg».proof.Proof.Gen.Pre_finite_inputs
import proofs.«422767_j89489938579617_3_alg».proof.Proof.HypsKernel
import proofs.«422767_j89489938579617_3_alg».proof.Proof.HypsKernelIdeal
import proofs.«422767_j89489938579617_3_alg».proof.Proof.KernelValue
import proofs.«422767_j89489938579617_3_alg».proof.Proof.RefValue
import Idealize.ShloMosaic.Adequacy
import Idealize.ShloMosaic.Init

noncomputable section

namespace Cert.Proof

open Idealize.ShloMosaic Idealize.ShloMosaic.ValueIdx Idealize.SL.Sem

attribute [local instance] Cert.Kernel.Gen.facts Cert.KernelIdeal.Gen.facts Cert.ReferenceIdeal.Gen.facts Cert.Pre_finite_inputs.Gen.facts

/-- The kernel as printed runs: the word it reads at every point passes the check it assumes. -/
theorem frame_k : Cert.frame_Kernel := fun m ρ h =>
  Cert.Kernel.Gen.frame m ρ (Cert.Kernel.HypsOfPre.ok m) (Cert.Kernel.HypsOfPre.hyps_of_pre m h)

/-- So does the idealized kernel. -/
theorem frame_ki : Cert.frame_KernelIdeal := fun m ρ h =>
  Cert.KernelIdeal.Gen.frame m ρ (Cert.KernelIdeal.HypsOfPre.ok m) (Cert.KernelIdeal.HypsOfPre.hyps_of_pre m h)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the specification's array of the arguments they agree on. -/
theorem algebraic : Cert.algebraic_KernelIdeal_ReferenceIdeal := by
  intro m ρ m' ρ' hpre hagree
  have hk := Cert.KernelIdeal.HypsOfPre.word_lt m hpre
  refine ⟨fun c => Cert.KernelIdeal.KValue.val m c,
    Cert.KernelIdeal.KValue.run m ρ hk (Cert.KernelIdeal.HypsOfPre.ok m) (Cert.KernelIdeal.HypsOfPre.hyps_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2.1,
    (hagree c).2.2.2.2.1, (hagree c).2.2.2.2.2]
  obtain rfl : c = 0 := Subsingleton.elim _ _
  exact Cert.RefValue.result_eq _ (fun b => hk (ix1 b)) _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
